-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S16x10 1) : IVec S_ 1 :=
  let main_c_5 : IVec S_ 1 := constantI S_ 1 1#1
  let main_v17 : IVec S_ 1 := (fun x v => Host.reduce IntOp.andi x v reducesTo_S16x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x10 .f32) (main_arg5 : FVec F S10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x10 .f32 := Host.absf main_arg4
  let main_cst_4 : FVec F S_ .f32 := constant S_ .f32 0x7F800000#32
  let main_v15 : FVec F S16x10 .f32 := broadcastInDim S16x10 ![] bcast_S_S16x10 main_cst_4
  let main_v16 : IVec S16x10 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x10 : Shape := ⟨2, ![16, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x10 : Shape := ⟨2, ![100000, 10]⟩
abbrev S10000x16 : Shape := ⟨2, ![10000, 16]⟩
abbrev S10000x10 : Shape := ⟨2, ![10000, 10]⟩
abbrev S3300000x10 : Shape := ⟨2, ![3300000, 10]⟩
abbrev S1x10 : Shape := ⟨2, ![1, 10]⟩

abbrev nBuf : Space → Nat
  | .hbm => 82
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x10, .f32⟩
  | .hbm, ⟨5, _⟩ => ⟨S10, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S100000x16, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x16, .f32⟩
  | .hbm, ⟨49, _⟩ => ⟨S3300000x1, .f32⟩
  | .hbm, ⟨50, _⟩ => ⟨S3300000x16, .f32⟩
  | .hbm, ⟨51, _⟩ => ⟨S3300000x16, .f32⟩
  | .hbm, ⟨52, _⟩ => ⟨S_, .f32⟩
  | .hbm, ⟨53, _⟩ => ⟨S100000x16, .f32⟩
  | .hbm, ⟨54, _⟩ => ⟨S3300000x1, .i32⟩
  | .hbm, ⟨55, _⟩ => ⟨S100000x16, .f32⟩
  | .hbm, ⟨56, _⟩ => ⟨S1x16, .f32⟩
  | .hbm, ⟨57, _⟩ => ⟨S100000x16, .f32⟩
  | .hbm, ⟨58, _⟩ => ⟨S100000x16, .f32⟩
  | .hbm, ⟨59, _⟩ => ⟨S_, .f32⟩
  | .hbm, ⟨60, _⟩ => ⟨S100000x16, .f32⟩
  | .hbm, ⟨61, _⟩ => ⟨S100000x16, .f32⟩
  | .hbm, ⟨62, _⟩ => ⟨S100000x10, .f32⟩
  | .hbm, ⟨63, _⟩ => ⟨S_, .i32⟩
  | .hbm, ⟨64, _⟩ => ⟨S3300000, .i32⟩
  | .hbm, ⟨65, _⟩ => ⟨S3300000, .i1⟩
  | .hbm, ⟨66, _⟩ => ⟨S_, .i32⟩
  | .hbm, ⟨67, _⟩ => ⟨S3300000, .i32⟩
  | .hbm, ⟨68, _⟩ => ⟨S3300000, .i32⟩
  | .hbm, ⟨69, _⟩ => ⟨S3300000, .i32⟩
  | .hbm, ⟨70, _⟩ => ⟨S3300000x1, .i32⟩
  | .hbm, ⟨71, _⟩ => ⟨S3300000x10, .f32⟩
  | .hbm, ⟨72, _⟩ => ⟨S3300000x1, .f32⟩
  | .hbm, ⟨73, _⟩ => ⟨S3300000x10, .f32⟩
  | .hbm, ⟨74, _⟩ => ⟨S3300000x10, .f32⟩
  | .hbm, ⟨75, _⟩ => ⟨S_, .f32⟩
  | .hbm, ⟨76, _⟩ => ⟨S100000x10, .f32⟩
  | .hbm, ⟨77, _⟩ => ⟨S3300000x1, .i32⟩
  | .hbm, ⟨78, _⟩ => ⟨S100000x10, .f32⟩
  | .hbm, ⟨79, _⟩ => ⟨S1x10, .f32⟩
  | .hbm, ⟨80, _⟩ => ⟨S100000x10, .f32⟩
  | .hbm, ⟨81, _⟩ => ⟨S100000x10, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S16x10, .f32⟩
  | .local _ .vmem, ⟨8, _⟩ => ⟨S10000x10, .f32⟩
  | .local _ .vmem, ⟨9, _⟩ => ⟨S10000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x10_S16x10_0_0 : ∀ a, (![0, 0] : Fin 2 → Nat) a + S16x10.size a ≤ S16x10.size a
  h_S16x10 : 0 < S16x10.numel
  inb_S10000x10_S10000x10_0_0 : ∀ a, (![0, 0] : Fin 2 → Nat) a + S10000x10.size a ≤ S10000x10.size a
  h_S10000x10 : 0 < S10000x10.numel
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x10_S10000x10_1_0_0_1_n_n_wf : DotDims.WF S10000x16 S16x10 S10000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x10.size a ≤ S16x10.size a
  hwx1_1 : ∀ i : grid1.Coords, EltTy.bits .f32 = 32 ∨ (Rect.block (s := S16x10) S16x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x10.size a ≤ S100000x10.size a
  hwx1_2 : ∀ i : grid1.Coords, EltTy.bits .f32 = 32 ∨ (Rect.block (s := S100000x10) S10000x10.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x10_S10000x10_1_0_0_1_n_n : DotDims S10000x16 S16x10 S10000x10 where
  lhsContracting := [1]
  rhsContracting := [0]
  lhsNonContracting := [0]
  rhsNonContracting := [1]
  lhsBatch := []
  rhsBatch := []
  wf := dot_S10000x16_S16x10_S10000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x10.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x10 : Shape := ⟨2, ![16, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x10 : Shape := ⟨2, ![100000, 10]⟩
abbrev S3300000x10 : Shape := ⟨2, ![3300000, 10]⟩
abbrev S1x10 : Shape := ⟨2, ![1, 10]⟩

abbrev nBuf : Space → Nat
  | .hbm => 115
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x10, .f32⟩
  | .hbm, ⟨5, _⟩ => ⟨S10, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S100000x16, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x16, .f32⟩
  | .hbm, ⟨49, _⟩ => ⟨S3300000x1, .f32⟩
  | .hbm, ⟨50, _⟩ => ⟨S3300000x16, .f32⟩
  | .hbm, ⟨51, _⟩ => ⟨S3300000x16, .f32⟩
  | .hbm, ⟨52, _⟩ => ⟨S_, .f32⟩
  | .hbm, ⟨53, _⟩ => ⟨S100000x16, .f32⟩
  | .hbm, ⟨54, _⟩ => ⟨S3300000x1, .i32⟩
  | .hbm, ⟨55, _⟩ => ⟨S100000x16, .f32⟩
  | .hbm, ⟨56, _⟩ => ⟨S1x16, .f32⟩
  | .hbm, ⟨57, _⟩ => ⟨S100000x16, .f32⟩
  | .hbm, ⟨58, _⟩ => ⟨S100000x16, .f32⟩
  | .hbm, ⟨59, _⟩ => ⟨S_, .f32⟩
  | .hbm, ⟨60, _⟩ => ⟨S100000x16, .f32⟩
  | .hbm, ⟨61, _⟩ => ⟨S100000x16, .f32⟩
  | .hbm, ⟨62, _⟩ => ⟨S100000, .i32⟩
  | .hbm, ⟨63, _⟩ => ⟨S1x3200000, .i32⟩
  | .hbm, ⟨64, _⟩ => ⟨S3200000, .i32⟩
  | .hbm, ⟨65, _⟩ => ⟨S3300000, .i32⟩
  | .hbm, ⟨66, _⟩ => ⟨S1x3200000, .i32⟩
  | .hbm, ⟨67, _⟩ => ⟨S3200000, .i32⟩
  | .hbm, ⟨68, _⟩ => ⟨S3300000, .i32⟩
  | .hbm, ⟨69, _⟩ => ⟨S_, .f32⟩
  | .hbm, ⟨70, _⟩ => ⟨S3300000, .f32⟩
  | .hbm, ⟨71, _⟩ => ⟨S_, .f32⟩
  | .hbm, ⟨72, _⟩ => ⟨S100000, .f32⟩
  | .hbm, ⟨73, _⟩ => ⟨S3300000x1, .i32⟩
  | .hbm, ⟨74, _⟩ => ⟨S100000, .f32⟩
  | .hbm, ⟨75, _⟩ => ⟨S100000, .f32⟩
  | .hbm, ⟨76, _⟩ => ⟨S_, .i32⟩
  | .hbm, ⟨77, _⟩ => ⟨S3300000, .i32⟩
  | .hbm, ⟨78, _⟩ => ⟨S3300000, .i1⟩
  | .hbm, ⟨79, _⟩ => ⟨S_, .i32⟩
  | .hbm, ⟨80, _⟩ => ⟨S3300000, .i32⟩
  | .hbm, ⟨81, _⟩ => ⟨S3300000, .i32⟩
  | .hbm, ⟨82, _⟩ => ⟨S3300000, .i32⟩
  | .hbm, ⟨83, _⟩ => ⟨S3300000x1, .i32⟩
  | .hbm, ⟨84, _⟩ => ⟨S3300000, .f32⟩
  | .hbm, ⟨85, _⟩ => ⟨S_, .i32⟩
  | .hbm, ⟨86, _⟩ => ⟨S3300000, .i32⟩
  | .hbm, ⟨87, _⟩ => ⟨S3300000, .i1⟩
  | .hbm, ⟨88, _⟩ => ⟨S_, .i32⟩
  | .hbm, ⟨89, _⟩ => ⟨S3300000, .i32⟩
  | .hbm, ⟨90, _⟩ => ⟨S3300000, .i32⟩
  | .hbm, ⟨91, _⟩ => ⟨S3300000, .i32⟩
  | .hbm, ⟨92, _⟩ => ⟨S3300000x1, .i32⟩
  | .hbm, ⟨93, _⟩ => ⟨S3300000, .f32⟩
  | .hbm, ⟨94, _⟩ => ⟨S3300000, .f32⟩
  | .hbm, ⟨95, _⟩ => ⟨S100000x10, .f32⟩
  | .hbm, ⟨96, _⟩ => ⟨S_, .i32⟩
  | .hbm, ⟨97, _⟩ => ⟨S3300000, .i32⟩
  | .hbm, ⟨98, _⟩ => ⟨S3300000, .i1⟩
  | .hbm, ⟨99, _⟩ => ⟨S_, .i32⟩
  | .hbm, ⟨100, _⟩ => ⟨S3300000, .i32⟩
  | .hbm, ⟨101, _⟩ => ⟨S3300000, .i32⟩
  | .hbm, ⟨102, _⟩ => ⟨S3300000, .i32⟩
  | .hbm, ⟨103, _⟩ => ⟨S3300000x1, .i32⟩
  | .hbm, ⟨104, _⟩ => ⟨S3300000x10, .f32⟩
  | .hbm, ⟨105, _⟩ => ⟨S3300000x1, .f32⟩
  | .hbm, ⟨106, _⟩ => ⟨S3300000x10, .f32⟩
  | .hbm, ⟨107, _⟩ => ⟨S3300000x10, .f32⟩
  | .hbm, ⟨108, _⟩ => ⟨S_, .f32⟩
  | .hbm, ⟨109, _⟩ => ⟨S100000x10, .f32⟩
  | .hbm, ⟨110, _⟩ => ⟨S3300000x1, .i32⟩
  | .hbm, ⟨111, _⟩ => ⟨S100000x10, .f32⟩
  | .hbm, ⟨112, _⟩ => ⟨S1x10, .f32⟩
  | .hbm, ⟨113, _⟩ => ⟨S100000x10, .f32⟩
  | .hbm, ⟨114, _⟩ => ⟨S100000x10, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_9 : Ref sig .tc := ⟨.hbm, 76, rfl⟩
abbrev main_v57 : Ref sig .tc := ⟨.hbm, 77, rfl⟩
abbrev main_v58 : Ref sig .tc := ⟨.hbm, 78, rfl⟩
abbrev main_c_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_11 : Ref sig .tc := ⟨.hbm, 85, rfl⟩
abbrev main_v64 : Ref sig .tc := ⟨.hbm, 86, rfl⟩
abbrev main_v65 : Ref sig .tc := ⟨.hbm, 87, rfl⟩
abbrev main_c_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_v73 : Ref sig .tc := ⟨.hbm, 97, rfl⟩
abbrev main_v74 : Ref sig .tc := ⟨.hbm, 98, rfl⟩
abbrev main_c_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x10_S100000x10_1_0_0_1_n_n_wf : DotDims.WF S100000x16 S16x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

class Facts : Prop extends Facts₀ where

variable [Facts]
-- ==== Proof.Stages.lean ====
/-
  The stages both programs share, each as one function of arrays, for any float values.

  The graph has `n = 100000` nodes and an edge list `e` of two rows of `3200000` node numbers.  Every node gets a
  self loop: `srcOf e` and `dstOf e` are row 0 and row 1 of `e` followed by `0, 1, …, n - 1` (`3300000` entries each).
  `degOf d` counts, for each node, the entries of `d` that name it (a scatter-add of ones into zeros), `normOf s d` is,
  edge by edge, `rsqrt (deg (s k)) * rsqrt (deg (d k))` (two gathers of the reciprocal root of the degree, a negative
  node number read from the end as the gather's index convention has it).  One layer's aggregation `aggregate16 h s d w b`
  gathers the rows `h (s k)`, scales row `k` by `w k`, adds each scaled row into row `d k` of a zero array, and adds the
  bias `b` to every row; `aggregate10` is the same over rows of ten.  `relu16` is the maximum with zero.
-/
import proofs.«117258_j52295521796842_1_alg».proof.KernelIdeal
import proofs.«117258_j52295521796842_1_alg».proof.Proof.Gen.KernelIdeal

noncomputable section

namespace Cert.Stages

open Idealize.ShloMosaic Cert.KernelIdeal Cert.KernelIdeal.Facts₀

variable {F : FTy → Type} [FloatOps F]

/-- Row 0 of the edge list, then the self loops' node numbers. -/
def srcOf (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- Row 1 of the edge list, then the self loops' node numbers. -/
def dstOf (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- Node numbers as a column of start indices. -/
def column (s : (⟨S3300000, .i32⟩ : BufTy).Contents (Elt F)) : (⟨S3300000x1, .i32⟩ : BufTy).Contents (Elt F) :=
  broadcastInDim S3300000x1 ![0] bcast_S3300000_S3300000x1_0 s

/-- Node numbers as gather indices: a negative one counts from the end (`k + n`). -/
def wrapped (s : (⟨S3300000, .i32⟩ : BufTy).Contents (Elt F)) : (⟨S3300000x1, .i32⟩ : BufTy).Contents (Elt F) :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- How many entries of `d` name each node. -/
def degOf (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32)) (column d)
    (broadcastInDim S3300000 ![] bcast_S_S3300000 (constant S_ .f32 0x3F800000#32))

/-- Edge `k`'s weight: the reciprocal roots of its two ends' degrees, multiplied. -/
def normOf (s d : (⟨S3300000, .i32⟩ : BufTy).Contents (Elt F)) : (⟨S3300000, .f32⟩ : BufTy).Contents (Elt F) :=
  mulf (Host.gather gather_S100000_S3300000x1_S3300000_n_0_n_n_0_1_1 (Host.rsqrt (degOf d)) (wrapped s))
    (Host.gather gather_S100000_S3300000x1_S3300000_n_0_n_n_0_1_1 (Host.rsqrt (degOf d)) (wrapped d))

/-- One layer's aggregation over rows of sixteen: `out (d k) += w k • h (s k)`, then the bias on every row. -/
def aggregate16 (h : (⟨S100000x16, .f32⟩ : BufTy).Contents (Elt F)) (s d : (⟨S3300000, .i32⟩ : BufTy).Contents (Elt F))
    (w : (⟨S3300000, .f32⟩ : BufTy).Contents (Elt F)) (b : (⟨S16, .f32⟩ : BufTy).Contents (Elt F)) :
    (⟨S100000x16, .f32⟩ : BufTy).Contents (Elt F) :=
  addf (Host.scatterAdd scatter_S100000x16_S3300000x1_S3300000x16_1_0_0_1
      (broadcastInDim S100000x16 ![] bcast_S_S100000x16 (constant S_ .f32 0x00000000#32)) (column d)
      (mulf (Host.gather gather_S100000x16_S3300000x1_S3300000x16_1_0_n_n_0_1_116 h (wrapped s))
        (broadcastInDim S3300000x16 ![0, 1] bcast_S3300000x1_S3300000x16_0_1 (broadcastInDim S3300000x1 ![0] bcast_S3300000_S3300000x1_0 w))))
    (broadcastInDim S100000x16 ![0, 1] bcast_S1x16_S100000x16_0_1 (broadcastInDim S1x16 ![1] bcast_S16_S1x16_1 b))

/-- The maximum with zero, entry by entry. -/
def relu16 (h : (⟨S100000x16, .f32⟩ : BufTy).Contents (Elt F)) : (⟨S100000x16, .f32⟩ : BufTy).Contents (Elt F) :=
  maximumf h (broadcastInDim S100000x16 ![] bcast_S_S100000x16 (constant S_ .f32 0x00000000#32))

/-- One layer's aggregation over rows of ten. -/
def aggregate10 (h : (⟨S100000x10, .f32⟩ : BufTy).Contents (Elt F)) (s d : (⟨S3300000, .i32⟩ : BufTy).Contents (Elt F))
    (w : (⟨S3300000, .f32⟩ : BufTy).Contents (Elt F)) (b : (⟨S10, .f32⟩ : BufTy).Contents (Elt F)) :
    (⟨S100000x10, .f32⟩ : BufTy).Contents (Elt F) :=
  addf (Host.scatterAdd scatter_S100000x10_S3300000x1_S3300000x10_1_0_0_1
      (broadcastInDim S100000x10 ![] bcast_S_S100000x10 (constant S_ .f32 0x00000000#32)) (column d)
      (mulf (Host.gather gather_S100000x10_S3300000x1_S3300000x10_1_0_n_n_0_1_110 h (wrapped s))
        (broadcastInDim S3300000x10 ![0, 1] bcast_S3300000x1_S3300000x10_0_1 (broadcastInDim S3300000x1 ![0] bcast_S3300000_S3300000x1_0 w))))
    (broadcastInDim S100000x10 ![0, 1] bcast_S1x10_S100000x10_0_1 (broadcastInDim S1x10 ![1] bcast_S10_S1x10_1 b))

end Cert.Stages

end
-- ==== Proof.HostStretches.lean ====
/-
  What each stretch of host operations of the kernel's program computes, read off the stretch run from ANY buffer
  contents `X`: the first stretch leaves the two endpoint lists and the edge weights (functions of the edge list alone);
  the stretch after the first product aggregates it (`aggregate16`), the called function takes the maximum with zero,
  and the last stretch aggregates the second product (`aggregate10`).  A buffer a stretch does not write keeps its
  contents.
-/
import proofs.«117258_j52295521796842_1_alg».proof.Proof.Gen.KernelIdeal.Launch
import proofs.«117258_j52295521796842_1_alg».proof.Proof.Stages
import Idealize.ShloMosaic.Lib.StableHlo.Run

set_option maxRecDepth 16384

noncomputable section

namespace Cert.KernelIdeal.Stretches

open Cert.KernelIdeal Cert.KernelIdeal.Gen Cert.Stages
open Idealize.ShloMosaic Idealize.ShloMosaic.TcCoe Idealize.ShloMosaic.StableHlo

variable {F : FTy → Type} [FloatOps F]
variable (X : Valuation τ sig (Elt F))

/-- A buffer that no operation of a literal stretch writes keeps its contents across it. -/
macro "stretch_keeps" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The first stretch: the endpoint lists and the edge weights -/

theorem first_src : after hostOps0 X (Proc.devRef .tc main_v3) = srcOf (X (Proc.devRef .tc main_arg1)) := by
  after_results_simp <;> rfl

theorem first_dst : after hostOps0 X (Proc.devRef .tc main_v6) = dstOf (X (Proc.devRef .tc main_arg1)) := by
  after_results_simp <;> rfl

theorem first_norm : after hostOps0 X (Proc.devRef .tc main_v26)
    = normOf (srcOf (X (Proc.devRef .tc main_arg1))) (dstOf (X (Proc.devRef .tc main_arg1))) := by
  after_results_simp <;> rfl

theorem first_keeps_arg0 : after hostOps0 X (Proc.devRef .tc main_arg0) = X (Proc.devRef .tc main_arg0) := by stretch_keeps hostOps0
theorem first_keeps_arg2 : after hostOps0 X (Proc.devRef .tc main_arg2) = X (Proc.devRef .tc main_arg2) := by stretch_keeps hostOps0
theorem first_keeps_arg3 : after hostOps0 X (Proc.devRef .tc main_arg3) = X (Proc.devRef .tc main_arg3) := by stretch_keeps hostOps0
theorem first_keeps_arg4 : after hostOps0 X (Proc.devRef .tc main_arg4) = X (Proc.devRef .tc main_arg4) := by stretch_keeps hostOps0
theorem first_keeps_arg5 : after hostOps0 X (Proc.devRef .tc main_arg5) = X (Proc.devRef .tc main_arg5) := by stretch_keeps hostOps0

/-! ## After the first product: its aggregation -/

theorem second_agg : after hostOps1 X (Proc.devRef .tc main_v43)
    = aggregate16 (X (Proc.devRef .tc main_v27)) (X (Proc.devRef .tc main_v3)) (X (Proc.devRef .tc main_v6))
        (X (Proc.devRef .tc main_v26)) (X (Proc.devRef .tc main_arg3)) := by
  after_results_simp <;> rfl

theorem second_keeps_v3 : after hostOps1 X (Proc.devRef .tc main_v3) = X (Proc.devRef .tc main_v3) := by stretch_keeps hostOps1
theorem second_keeps_v6 : after hostOps1 X (Proc.devRef .tc main_v6) = X (Proc.devRef .tc main_v6) := by stretch_keeps hostOps1
theorem second_keeps_v26 : after hostOps1 X (Proc.devRef .tc main_v26) = X (Proc.devRef .tc main_v26) := by stretch_keeps hostOps1
theorem second_keeps_arg4 : after hostOps1 X (Proc.devRef .tc main_arg4) = X (Proc.devRef .tc main_arg4) := by stretch_keeps hostOps1
theorem second_keeps_arg5 : after hostOps1 X (Proc.devRef .tc main_arg5) = X (Proc.devRef .tc main_arg5) := by stretch_keeps hostOps1

/-! ## The called function: the maximum with zero -/

theorem third_relu : after hostOps1_1 X (Proc.devRef .tc main_v44) = relu16 (X (Proc.devRef .tc main_v43)) := by
  after_results_simp <;> rfl

theorem third_keeps_v3 : after hostOps1_1 X (Proc.devRef .tc main_v3) = X (Proc.devRef .tc main_v3) := by stretch_keeps hostOps1_1
theorem third_keeps_v6 : after hostOps1_1 X (Proc.devRef .tc main_v6) = X (Proc.devRef .tc main_v6) := by stretch_keeps hostOps1_1
theorem third_keeps_v26 : after hostOps1_1 X (Proc.devRef .tc main_v26) = X (Proc.devRef .tc main_v26) := by stretch_keeps hostOps1_1
theorem third_keeps_arg4 : after hostOps1_1 X (Proc.devRef .tc main_arg4) = X (Proc.devRef .tc main_arg4) := by stretch_keeps hostOps1_1
theorem third_keeps_arg5 : after hostOps1_1 X (Proc.devRef .tc main_arg5) = X (Proc.devRef .tc main_arg5) := by stretch_keeps hostOps1_1

/-! ## After the second product: its aggregation -/

theorem last_agg : after hostOps2 X (Proc.devRef .tc main_v61)
    = aggregate10 (X (Proc.devRef .tc main_v45)) (X (Proc.devRef .tc main_v3)) (X (Proc.devRef .tc main_v6))
        (X (Proc.devRef .tc main_v26)) (X (Proc.devRef .tc main_arg5)) := by
  after_results_simp <;> rfl

end Cert.KernelIdeal.Stretches

end
-- ==== Proof.KernelFold.lean ====
/-
  The kernel program's buffer contents at each boundary of its run, read as values.  The run is a fold: the first
  stretch of host operations, the first kernel region, two stretches, the second kernel region, the last stretch.  The
  endpoint lists and the edge weights are written by the first stretch and by nothing after it; each argument is written
  by nothing; so at every later boundary they are what the first stretch made of the launch contents.  A region changes
  only its result array.  The result of the program is therefore the last aggregation applied to the second region's
  result array, which the region computed from the maximum-with-zero of the first aggregation of the first region's.
-/
import proofs.«117258_j52295521796842_1_alg».proof.Proof.Gen.KernelIdeal.Frame
import proofs.«117258_j52295521796842_1_alg».proof.Proof.HostStretches

set_option maxRecDepth 16384

noncomputable section

namespace Cert.KernelIdeal.Fold

open Cert.KernelIdeal Cert.KernelIdeal.Gen Cert.Stages Cert.KernelIdeal.Stretches
open Idealize.ShloMosaic Idealize.ShloMosaic.TcCoe Idealize.SL.Sem

variable {F : FTy → Type} [FloatOps F]
variable (m : (ℓ : Loc nD τ sig) → Buf (Elt F) ℓ) (ρ : Dev nD → PrngReg)

/-- The edge list as launched. -/
abbrev edges (c : Dev nD) : (⟨S2x3200000, .i32⟩ : BufTy).Contents (Elt F) := m ((c : Thread nD τ).loc main_arg1)

/-! ## The sources' list through the fold -/

theorem W1_src (c : Dev nD) : W1 m ρ c (Proc.devRef .tc main_v3) = srcOf (edges m c) := first_src (W0 m ρ c)
theorem W2_src (c : Dev nD) : W2 m ρ c (Proc.devRef .tc main_v3) = srcOf (edges m c) :=
  (W2_of_ne m ρ c main_v3 (by decide)).trans (W1_src m ρ c)
theorem W3_src (c : Dev nD) : W3 m ρ c (Proc.devRef .tc main_v3) = srcOf (edges m c) :=
  (second_keeps_v3 (W2 m ρ c)).trans (W2_src m ρ c)
theorem W4_src (c : Dev nD) : W4 m ρ c (Proc.devRef .tc main_v3) = srcOf (edges m c) :=
  (third_keeps_v3 (W3 m ρ c)).trans (W3_src m ρ c)
theorem W5_src (c : Dev nD) : W5 m ρ c (Proc.devRef .tc main_v3) = srcOf (edges m c) :=
  (W5_of_ne m ρ c main_v3 (by decide)).trans (W4_src m ρ c)

/-! ## The targets' list -/

theorem W1_dst (c : Dev nD) : W1 m ρ c (Proc.devRef .tc main_v6) = dstOf (edges m c) := first_dst (W0 m ρ c)
theorem W2_dst (c : Dev nD) : W2 m ρ c (Proc.devRef .tc main_v6) = dstOf (edges m c) :=
  (W2_of_ne m ρ c main_v6 (by decide)).trans (W1_dst m ρ c)
theorem W3_dst (c : Dev nD) : W3 m ρ c (Proc.devRef .tc main_v6) = dstOf (edges m c) :=
  (second_keeps_v6 (W2 m ρ c)).trans (W2_dst m ρ c)
theorem W4_dst (c : Dev nD) : W4 m ρ c (Proc.devRef .tc main_v6) = dstOf (edges m c) :=
  (third_keeps_v6 (W3 m ρ c)).trans (W3_dst m ρ c)
theorem W5_dst (c : Dev nD) : W5 m ρ c (Proc.devRef .tc main_v6) = dstOf (edges m c) :=
  (W5_of_ne m ρ c main_v6 (by decide)).trans (W4_dst m ρ c)

/-! ## The edge weights -/

theorem W1_norm (c : Dev nD) : W1 m ρ c (Proc.devRef .tc main_v26) = normOf (srcOf (edges m c)) (dstOf (edges m c)) :=
  first_norm (W0 m ρ c)
theorem W2_norm (c : Dev nD) : W2 m ρ c (Proc.devRef .tc main_v26) = normOf (srcOf (edges m c)) (dstOf (edges m c)) :=
  (W2_of_ne m ρ c main_v26 (by decide)).trans (W1_norm m ρ c)
theorem W3_norm (c : Dev nD) : W3 m ρ c (Proc.devRef .tc main_v26) = normOf (srcOf (edges m c)) (dstOf (edges m c)) :=
  (second_keeps_v26 (W2 m ρ c)).trans (W2_norm m ρ c)
theorem W4_norm (c : Dev nD) : W4 m ρ c (Proc.devRef .tc main_v26) = normOf (srcOf (edges m c)) (dstOf (edges m c)) :=
  (third_keeps_v26 (W3 m ρ c)).trans (W3_norm m ρ c)
theorem W5_norm (c : Dev nD) : W5 m ρ c (Proc.devRef .tc main_v26) = normOf (srcOf (edges m c)) (dstOf (edges m c)) :=
  (W5_of_ne m ρ c main_v26 (by decide)).trans (W4_norm m ρ c)

/-! ## The arguments, as far as each is read -/

theorem W1_arg0 (c : Dev nD) : W1 m ρ c (Proc.devRef .tc main_arg0) = m ((c : Thread nD τ).loc main_arg0) := first_keeps_arg0 (W0 m ρ c)
theorem W1_arg2 (c : Dev nD) : W1 m ρ c (Proc.devRef .tc main_arg2) = m ((c : Thread nD τ).loc main_arg2) := first_keeps_arg2 (W0 m ρ c)

theorem W2_arg3 (c : Dev nD) : W2 m ρ c (Proc.devRef .tc main_arg3) = m ((c : Thread nD τ).loc main_arg3) :=
  (W2_of_ne m ρ c main_arg3 (by decide)).trans (first_keeps_arg3 (W0 m ρ c))

theorem W4_arg4 (c : Dev nD) : W4 m ρ c (Proc.devRef .tc main_arg4) = m ((c : Thread nD τ).loc main_arg4) :=
  (third_keeps_arg4 (W3 m ρ c)).trans ((second_keeps_arg4 (W2 m ρ c)).trans
    ((W2_of_ne m ρ c main_arg4 (by decide)).trans (first_keeps_arg4 (W0 m ρ c))))

theorem W5_arg5 (c : Dev nD) : W5 m ρ c (Proc.devRef .tc main_arg5) = m ((c : Thread nD τ).loc main_arg5) :=
  (W5_of_ne m ρ c main_arg5 (by decide)).trans ((third_keeps_arg5 (W3 m ρ c)).trans ((second_keeps_arg5 (W2 m ρ c)).trans
    ((W2_of_ne m ρ c main_arg5 (by decide)).trans (first_keeps_arg5 (W0 m ρ c)))))

/-! ## The two regions' result arrays, and what is computed from them -/

/-- After the first region its result buffer holds what the region's write-backs leave. -/
theorem W2_first (c : Dev nD) : W2 m ρ c (Proc.devRef .tc main_v27) = (dat0 (V1 m ρ) c).arrAt 2 cfg0.N := W2_arr m ρ c 2

/-- The second region's left operand: the maximum with zero of the first aggregation of the first region's result. -/
theorem W4_hidden (c : Dev nD) : W4 m ρ c (Proc.devRef .tc main_v44)
    = relu16 (aggregate16 ((dat0 (V1 m ρ) c).arrAt 2 cfg0.N) (srcOf (edges m c)) (dstOf (edges m c))
        (normOf (srcOf (edges m c)) (dstOf (edges m c))) (m ((c : Thread nD τ).loc main_arg3))) := by
  refine (third_relu (W3 m ρ c)).trans (congrArg relu16 ?_)
  refine (second_agg (W2 m ρ c)).trans ?_
  rw [W2_first, W2_src, W2_dst, W2_norm, W2_arg3]

/-- After the second region its result buffer holds what the region's write-backs leave. -/
theorem W5_second (c : Dev nD) : W5 m ρ c (Proc.devRef .tc main_v45) = (dat1 (V4 m ρ) c).arrAt 2 cfg1.N := W5_arr m ρ c 2

/-- THE RESULT of the program: the last aggregation of the second region's result array. -/
theorem W6_result (c : Dev nD) : W6 m ρ c (Proc.devRef .tc main_v61)
    = aggregate10 ((dat1 (V4 m ρ) c).arrAt 2 cfg1.N) (srcOf (edges m c)) (dstOf (edges m c))
        (normOf (srcOf (edges m c)) (dstOf (edges m c))) (m ((c : Thread nD τ).loc main_arg5)) := by
  refine (last_agg (W5 m ρ c)).trans ?_
  rw [W5_second, W5_src, W5_dst, W5_norm, W5_arg5]

end Cert.KernelIdeal.Fold

end
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.LibPlainProduct.lean ====
/-
  The product of an `M × K` array by a `K × N` array as ONE function of the two arrays: entry `(r, c)` is the sum
  over `k : Fin K` of the left array at `(r, k)` times the right array at `(k, c)`, on the extended reals.  For the plain
  dimension numbers (`DotDims.plain`) both a `tpu.matmul` into the zero splat and the host's `dot_general` are that
  function, whatever element formats the operands carry.  Nothing here names a program.
-/
import proofs.«117258_j52295521796842_1_alg».proof.Proof.LibPlainMatmul

noncomputable section

namespace Cert.PlainMatmul

open Idealize.ShloMosaic Idealize.ShloMosaic.ValueIdx

/-- The array of inner products of the rows of `a` with the columns of `b`. -/
def product {M K N : ℕ} {φ₁ φ₂ : FTy} (a : FVec Ideal ⟨2, ![M, K]⟩ φ₁) (b : FVec Ideal ⟨2, ![K, N]⟩ φ₂) :
    FVec Ideal ⟨2, ![M, N]⟩ .f32 :=
  fun i => ∑ k : Fin K, a (ix2 (i 0) k) * b (ix2 k (i 1))

/-- At `(r, c)` it is `∑ k, a (r, k) * b (k, c)`. -/
theorem product_apply {M K N : ℕ} {φ₁ φ₂ : FTy} (a : FVec Ideal ⟨2, ![M, K]⟩ φ₁) (b : FVec Ideal ⟨2, ![K, N]⟩ φ₂)
    (r : Fin M) (c : Fin N) : product a b (ix2 r c) = ∑ k : Fin K, a (ix2 r k) * b (ix2 k c) := rfl

/-- The host's plain `dot_general`, at entry `(r, c)`, is `∑ k, a (r, k) * b (k, c)` on the extended reals. -/
theorem dotGeneral_plain_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    Host.dotGeneral (DotDims.plain M K N) prec a b (ix2 r c) = ∑ k : Fin K, a (ix2 r k) * b (ix2 k c) := by
  show FloatOps.dotGeneral (DotDims.plain M K N) prec .single a b (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- The host's plain `dot_general` IS the product array. -/
theorem dotGeneral_plain_eq_product {M K N : ℕ} {φ₁ φ₂ : FTy}
    (a : FVec Ideal ⟨2, ![M, K]⟩ φ₁) (b : FVec Ideal ⟨2, ![K, N]⟩ φ₂) (prec : Option ContractPrecision) :
    Host.dotGeneral (DotDims.plain M K N) prec a b = product a b := by
  funext i
  obtain ⟨r, c, rfl⟩ : ∃ (r : Fin M) (c : Fin N), i = ix2 r c := ⟨i 0, i 1, eq_ix2 i⟩
  rw [dotGeneral_plain_apply, product_apply]

/-- A plain `tpu.matmul` into the zero splat IS the product array. -/
theorem matmul_plain_zero_eq_product {M K N : ℕ} {φ₁ φ₂ : FTy}
    (a : FVec Ideal ⟨2, ![M, K]⟩ φ₁) (b : FVec Ideal ⟨2, ![K, N]⟩ φ₂) (prec : Option ContractPrecision) :
    matmul (DotDims.plain M K N) prec a b (constant ⟨2, ![M, N]⟩ .f32 0x00000000#32) = product a b := by
  funext i
  obtain ⟨r, c, rfl⟩ : ∃ (r : Fin M) (c : Fin N), i = ix2 r c := ⟨i 0, i 1, eq_ix2 i⟩
  rw [matmul_plain_zero_apply, product_apply]

end Cert.PlainMatmul

end
-- ==== Proof.FirstProduct.lean ====
/-
  The first kernel region, read as a value at the extended reals.  Its grid has 20 points; point `t` loads rows
  `5000 t … 5000 t + 4999` of the left array (all 512 columns) and the whole 512 × 16 right array, and stores the product of
  the two loaded blocks (the change of format on the way into the product is the identity here, and the accumulator is
  zero) as rows `5000 t … 5000 t + 4999` of the result.  Entry `(r, q)` of a block's product reads row `r` of the block,
  which is row `5000 t + r` of the array; the twenty row blocks tile the result; so the result array ends at the product
  of the two whole arrays as the region found them, whatever those contents `V` are.
-/
import proofs.«117258_j52295521796842_1_alg».proof.Proof.Gen.KernelIdeal.Frame
import proofs.«117258_j52295521796842_1_alg».proof.Proof.LibPlainProduct
import Idealize.ShloMosaic.Lib.Pipeline.Value
import Idealize.ShloMosaic.Lib.ValueIdx

set_option maxRecDepth 16384

noncomputable section

namespace Cert.KernelIdeal.FirstProduct

open Cert.KernelIdeal Cert.KernelIdeal.Gen Cert.PlainMatmul
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The left array, the right array, and the two blocks point `t` loads, at their literal types. -/
abbrev lhsArr (c : Dev nD) : FVec Ideal S100000x512 .f32 := V c main_arg0
abbrev rhsArr (c : Dev nD) : FVec Ideal S512x16 .f32 := V c main_arg2
abbrev lhsBlk (c : Dev nD) (t : Fin cfg0.N) : FVec Ideal S5000x512 .f32 := iblk0 V c 0 t
abbrev rhsBlk (c : Dev nD) (t : Fin cfg0.N) : FVec Ideal S512x16 .f32 := iblk0 V c 1 t

theorem origin : (![0, 0] : Fin 2 → Nat) = fun _ => 0 := funext fun a => by fin_cases a <;> rfl

/-- What the body stores is the product of the two blocks it loaded. -/
theorem stored_eq_product (x0 : FVec Ideal S5000x512 .f32) (x1 : FVec Ideal S512x16 .f32) :
    k0_pay1 (F := Ideal) x0 x1 = product x0 x1 := by
  funext i
  obtain ⟨r, q, rfl⟩ : ∃ (r : Fin 5000) (q : Fin 16), i = ix2 r q := ⟨i 0, i 1, eq_ix2 i⟩
  unfold k0_pay1
  refine (matmul_plain_zero_apply (truncf .bf16 x0 bitsLt_bf16_f32) (truncf .bf16 x1 bitsLt_bf16_f32) none r q).trans ?_
  rfl

/-- The printed index maps over the grid: the left block and the result block sit at the same row block, every
    other block index is zero, and there are twenty row blocks. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block is some point's. -/
theorem row_block_onto : ∀ q : Fin 20, ∃ t : Fin cfg0.N, win0_2.index t = ![q.val, 0] :=
  (by decide +kernel : ∀ q : Fin 20, ∃ t : Fin grid0.N, win0_2.index t = ![q.val, 0])

/-- Row `r` of the left block at point `t` is row `5000 * (block index) + r` of the left array. -/
theorem lhsBlk_apply (c : Dev nD) (t : Fin cfg0.N) (r : Fin 5000) (k : Fin 512)
    (hrow : win0_2.index t (0 : Fin 2) * 5000 + r.val < 100000) :
    lhsBlk V c t (ix2 r k) = lhsArr V c (ix2 (⟨win0_2.index t (0 : Fin 2) * 5000 + r.val, hrow⟩ : Fin 100000) k) := by
  obtain ⟨e0, e1, e2, e3, e4, e5⟩ := block_indices t
  show V c main_arg0 (((cfg0.win 0).blk t).view.emb (ix2 r k)) = V c main_arg0 (ix2 _ k)
  refine congrArg (V c main_arg0) ?_
  funext a; apply Fin.ext
  match a with
  | ⟨0, _⟩ => show win0_0.index t (0 : Fin 2) * 5000 + 1 * r.val = win0_2.index t (0 : Fin 2) * 5000 + r.val; omega
  | ⟨1, _⟩ => show win0_0.index t (1 : Fin 2) * 512 + 1 * k.val = k.val; omega

/-- The right block at every point is the whole right array. -/
theorem rhsBlk_apply (c : Dev nD) (t : Fin cfg0.N) (k : Fin 512) (q : Fin 16) :
    rhsBlk V c t (ix2 k q) = rhsArr V c (ix2 k q) := by
  obtain ⟨e0, e1, e2, e3, e4, e5⟩ := block_indices t
  show V c main_arg2 (((cfg0.win 1).blk t).view.emb (ix2 k q)) = V c main_arg2 (ix2 k q)
  refine congrArg (V c main_arg2) ?_
  funext a; apply Fin.ext
  match a with
  | ⟨0, _⟩ => show win0_1.index t (0 : Fin 2) * 512 + 1 * k.val = k.val; omega
  | ⟨1, _⟩ => show win0_1.index t (1 : Fin 2) * 16 + 1 * q.val = q.val; omega

/-- Entry `(r, q)` of the result block at point `t` is entry `(5000 * (block index) + r, q)` of the result array. -/
theorem outBlk_emb (t : Fin cfg0.N) (r : Fin 5000) (q : Fin 16)
    (hrow : win0_2.index t (0 : Fin 2) * 5000 + r.val < 100000) :
    ((cfg0.win 2).blk t).view.emb (ix2 r q) = ix2 (⟨win0_2.index t (0 : Fin 2) * 5000 + r.val, hrow⟩ : Fin 100000) q := by
  obtain ⟨e0, e1, e2, e3, e4, e5⟩ := block_indices t
  funext a; apply Fin.ext
  match a with
  | ⟨0, _⟩ => show win0_2.index t (0 : Fin 2) * 5000 + 1 * r.val = win0_2.index t (0 : Fin 2) * 5000 + r.val; omega
  | ⟨1, _⟩ => show win0_2.index t (1 : Fin 2) * 16 + 1 * q.val = q.val; omega

/-- What point `t` writes back is its block of the product of the two whole arrays. -/
theorem flushed_eq (c : Dev nD) (t : Fin cfg0.N) :
    (dat0 V c).flushed 2 t = ((cfg0.win 2).blk t).view.read (Elt Ideal) (product (lhsArr V c) (rhsArr V c)) := by
  show (cfg0.win 2).cut (grid0.coords t) ((dat0 V c).after 2 t) = _
  rw [after0_2]
  unfold out0_2
  rw [View.canon_unit_zero origin]
  simp only [View.ld_unit_zero (S := S5000x512) origin, View.ld_unit_zero (S := S512x16) origin]
  rw [stored_eq_product]
  funext j
  obtain ⟨r, q, rfl⟩ : ∃ (r : Fin 5000) (q : Fin 16), j = ix2 r q := ⟨j 0, j 1, eq_ix2 j⟩
  have hrow : win0_2.index t (0 : Fin 2) * 5000 + r.val < 100000 := by
    have := (block_indices t).2.2.2.2.2; have := r.isLt; omega
  show product (lhsBlk V c t) (rhsBlk V c t) (ix2 r q)
    = product (lhsArr V c) (rhsArr V c) (((cfg0.win 2).blk t).view.emb (ix2 r q))
  rw [outBlk_emb t r q hrow, product_apply, product_apply]
  refine Finset.sum_congr rfl fun k _ => ?_
  rw [lhsBlk_apply V c t r k hrow, rhsBlk_apply V c t k q]

/-- An index of the result array is in point `t`'s block iff each coordinate is in the block's range. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v27).slice (win0_2.rect t)).set ↔ _
  rw [View.set_slice_whole, Rect.mem_set_unit]
  exact Iff.rfl

/-- The row blocks tile the result: row `r` is in the block of the point whose row block is `r / 5000`. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := row_block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- THE RESULT ARRAY after the region: the product of the two arrays as the region found them. -/
theorem result (c : Dev nD) : (dat0 V c).arrAt 2 cfg0.N = product (lhsArr V c) (rhsArr V c) :=
  (dat0 V c).arrAt_eq_of_cover 2 (product (lhsArr V c) (rhsArr V c)) (fun t _ => flushed_eq V c t) covered

end Cert.KernelIdeal.FirstProduct

end
-- ==== Proof.SecondProduct.lean ====
/-
  The second kernel region, read as a value at the extended reals.  Its grid has 10 points; point `t` loads rows
  `10000 t … 10000 t + 9999` of the left array (all 16 columns) and the whole 16 × 10 right array, and stores the product of
  the two loaded blocks as rows `10000 t … 10000 t + 9999` of the result (the body's reshape is to the same shape, the
  change of format the identity, the accumulator zero).  The ten row blocks tile the result, so the result array ends at
  the product of the two whole arrays as the region found them, whatever those contents `V` are.
-/
import proofs.«117258_j52295521796842_1_alg».proof.Proof.Gen.KernelIdeal.Frame
import proofs.«117258_j52295521796842_1_alg».proof.Proof.LibPlainProduct
import Idealize.ShloMosaic.Lib.Pipeline.Value
import Idealize.ShloMosaic.Lib.ValueIdx

set_option maxRecDepth 16384

noncomputable section

namespace Cert.KernelIdeal.SecondProduct

open Cert.KernelIdeal Cert.KernelIdeal.Gen Cert.PlainMatmul
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The left array, the right array, and the two blocks point `t` loads, at their literal types. -/
abbrev lhsArr (c : Dev nD) : FVec Ideal S100000x16 .f32 := V c main_v44
abbrev rhsArr (c : Dev nD) : FVec Ideal S16x10 .f32 := V c main_arg4
abbrev lhsBlk (c : Dev nD) (t : Fin cfg1.N) : FVec Ideal S10000x16 .f32 := iblk1 V c 0 t
abbrev rhsBlk (c : Dev nD) (t : Fin cfg1.N) : FVec Ideal S16x10 .f32 := iblk1 V c 1 t

theorem origin : (![0, 0] : Fin 2 → Nat) = fun _ => 0 := funext fun a => by fin_cases a <;> rfl

/-- What the body stores is the product of the two blocks it loaded. -/
theorem stored_eq_product (x0 : FVec Ideal S10000x16 .f32) (x1 : FVec Ideal S16x10 .f32) :
    k1_pay1 (F := Ideal) x0 x1 = product x0 x1 := by
  have hcast : shapeCast S10000x16 x0 shapeCasts_S10000x16_S10000x16 = x0 := shapeCast_self x0 _
  funext i
  obtain ⟨r, q, rfl⟩ : ∃ (r : Fin 10000) (q : Fin 10), i = ix2 r q := ⟨i 0, i 1, eq_ix2 i⟩
  unfold k1_pay1
  refine (matmul_plain_zero_apply (truncf .bf16 (shapeCast S10000x16 x0 shapeCasts_S10000x16_S10000x16) bitsLt_bf16_f32)
    (truncf .bf16 x1 bitsLt_bf16_f32) none r q).trans ?_
  rw [hcast]
  rfl

/-- The printed index maps over the grid: the left block and the result block sit at the same row block, every
    other block index is zero, and there are ten row blocks. -/
theorem block_indices : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some point's. -/
theorem row_block_onto : ∀ q : Fin 10, ∃ t : Fin cfg1.N, win1_2.index t = ![q.val, 0] :=
  (by decide +kernel : ∀ q : Fin 10, ∃ t : Fin grid1.N, win1_2.index t = ![q.val, 0])

/-- Row `r` of the left block at point `t` is row `10000 * (block index) + r` of the left array. -/
theorem lhsBlk_apply (c : Dev nD) (t : Fin cfg1.N) (r : Fin 10000) (k : Fin 16)
    (hrow : win1_2.index t (0 : Fin 2) * 10000 + r.val < 100000) :
    lhsBlk V c t (ix2 r k) = lhsArr V c (ix2 (⟨win1_2.index t (0 : Fin 2) * 10000 + r.val, hrow⟩ : Fin 100000) k) := by
  obtain ⟨e0, e1, e2, e3, e4, e5⟩ := block_indices t
  show V c main_v44 (((cfg1.win 0).blk t).view.emb (ix2 r k)) = V c main_v44 (ix2 _ k)
  refine congrArg (V c main_v44) ?_
  funext a; apply Fin.ext
  match a with
  | ⟨0, _⟩ => show win1_0.index t (0 : Fin 2) * 10000 + 1 * r.val = win1_2.index t (0 : Fin 2) * 10000 + r.val; omega
  | ⟨1, _⟩ => show win1_0.index t (1 : Fin 2) * 16 + 1 * k.val = k.val; omega

/-- The right block at every point is the whole right array. -/
theorem rhsBlk_apply (c : Dev nD) (t : Fin cfg1.N) (k : Fin 16) (q : Fin 10) :
    rhsBlk V c t (ix2 k q) = rhsArr V c (ix2 k q) := by
  obtain ⟨e0, e1, e2, e3, e4, e5⟩ := block_indices t
  show V c main_arg4 (((cfg1.win 1).blk t).view.emb (ix2 k q)) = V c main_arg4 (ix2 k q)
  refine congrArg (V c main_arg4) ?_
  funext a; apply Fin.ext
  match a with
  | ⟨0, _⟩ => show win1_1.index t (0 : Fin 2) * 16 + 1 * k.val = k.val; omega
  | ⟨1, _⟩ => show win1_1.index t (1 : Fin 2) * 10 + 1 * q.val = q.val; omega

/-- Entry `(r, q)` of the result block at point `t` is entry `(10000 * (block index) + r, q)` of the result array. -/
theorem outBlk_emb (t : Fin cfg1.N) (r : Fin 10000) (q : Fin 10)
    (hrow : win1_2.index t (0 : Fin 2) * 10000 + r.val < 100000) :
    ((cfg1.win 2).blk t).view.emb (ix2 r q) = ix2 (⟨win1_2.index t (0 : Fin 2) * 10000 + r.val, hrow⟩ : Fin 100000) q := by
  obtain ⟨e0, e1, e2, e3, e4, e5⟩ := block_indices t
  funext a; apply Fin.ext
  match a with
  | ⟨0, _⟩ => show win1_2.index t (0 : Fin 2) * 10000 + 1 * r.val = win1_2.index t (0 : Fin 2) * 10000 + r.val; omega
  | ⟨1, _⟩ => show win1_2.index t (1 : Fin 2) * 10 + 1 * q.val = q.val; omega

/-- What point `t` writes back is its block of the product of the two whole arrays. -/
theorem flushed_eq (c : Dev nD) (t : Fin cfg1.N) :
    (dat1 V c).flushed 2 t = ((cfg1.win 2).blk t).view.read (Elt Ideal) (product (lhsArr V c) (rhsArr V c)) := by
  show (cfg1.win 2).cut (grid1.coords t) ((dat1 V c).after 2 t) = _
  rw [after1_2]
  unfold out1_2
  rw [View.canon_unit_zero origin]
  simp only [View.ld_unit_zero (S := S10000x16) origin, View.ld_unit_zero (S := S16x10) origin]
  rw [stored_eq_product]
  funext j
  obtain ⟨r, q, rfl⟩ : ∃ (r : Fin 10000) (q : Fin 10), j = ix2 r q := ⟨j 0, j 1, eq_ix2 j⟩
  have hrow : win1_2.index t (0 : Fin 2) * 10000 + r.val < 100000 := by
    have := (block_indices t).2.2.2.2.2; have := r.isLt; omega
  show product (lhsBlk V c t) (rhsBlk V c t) (ix2 r q)
    = product (lhsArr V c) (rhsArr V c) (((cfg1.win 2).blk t).view.emb (ix2 r q))
  rw [outBlk_emb t r q hrow, product_apply, product_apply]
  refine Finset.sum_congr rfl fun k _ => ?_
  rw [lhsBlk_apply V c t r k hrow, rhsBlk_apply V c t k q]

/-- An index of the result array is in point `t`'s block iff each coordinate is in the block's range. -/
theorem mem_block (t : Fin cfg1.N) (i : S100000x10.Idx) :
    i ∈ ((cfg1.win 2).blk t).view.set ↔ ∀ a : Fin 2, win1_2.index t a * S10000x10.size a ≤ (i a).val ∧ (i a).val < win1_2.index t a * S10000x10.size a + S10000x10.size a := by
  show i ∈ ((View.whole main_v45).slice (win1_2.rect t)).set ↔ _
  rw [View.set_slice_whole, Rect.mem_set_unit]
  exact Iff.rfl

/-- The row blocks tile the result: row `r` is in the block of the point whose row block is `r / 10000`. -/
theorem covered (i : S100000x10.Idx) :
    ∃ t : Fin cfg1.N, (cfg1.win 2).flush t = true ∧ i ∈ ((cfg1.win 2).blk t).view.set := by
  have hi0 : (i 0).val < 100000 := (i 0).isLt
  have hi1 : (i 1).val < 10 := (i 1).isLt
  obtain ⟨t, ht⟩ := row_block_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 10 ≤ (i 1).val ∧ (i 1).val < win1_2.index t (1 : Fin 2) * 10 + 10; omega

/-- THE RESULT ARRAY after the region: the product of the two arrays as the region found them. -/
theorem result (c : Dev nD) : (dat1 V c).arrAt 2 cfg1.N = product (lhsArr V c) (rhsArr V c) :=
  (dat1 V c).arrAt_eq_of_cover 2 (product (lhsArr V c) (rhsArr V c)) (fun t _ => flushed_eq V c t) covered

end Cert.KernelIdeal.SecondProduct

end
-- ==== Proof.Network.lean ====
/-
  The whole two-layer network as one function of its six arguments, at the extended reals: the first product, its
  aggregation over the graph with the first bias, the maximum with zero, the second product, and its aggregation with the
  second bias.  The endpoint lists and the edge weights depend on the edge list alone and serve both layers.
-/
import proofs.«117258_j52295521796842_1_alg».proof.Proof.Stages
import proofs.«117258_j52295521796842_1_alg».proof.Proof.LibPlainProduct

noncomputable section

namespace Cert.Stages

open Idealize.ShloMosaic Cert.KernelIdeal Cert.PlainMatmul

/-- `aggregate10 ((relu16 (aggregate16 (x · W1) + b1)) · W2) + b2`, the aggregations over the graph of `e`. -/
def network (x : FVec Ideal S100000x512 .f32) (e : (⟨S2x3200000, .i32⟩ : BufTy).Contents (Elt Ideal))
    (W1 : FVec Ideal S512x16 .f32) (b1 : FVec Ideal S16 .f32) (W2 : FVec Ideal S16x10 .f32) (b2 : FVec Ideal S10 .f32) :
    FVec Ideal S100000x10 .f32 :=
  aggregate10
    (product (φ₁ := .f32) (φ₂ := .f32) (relu16 (aggregate16 (product x W1) (srcOf e) (dstOf e) (normOf (srcOf e) (dstOf e)) b1)) W2)
    (srcOf e) (dstOf e) (normOf (srcOf e) (dstOf e)) b2

end Cert.Stages

end
-- ==== Proof.KernelValue.lean ====
/-
  The kernel program's result as the network of its arguments, at the extended reals: the fold of boundary contents
  with each region's result array read as the product of the arrays the region found, and those arrays read back
  through the fold to the launch contents.
-/
import proofs.«117258_j52295521796842_1_alg».proof.Proof.KernelFold
import proofs.«117258_j52295521796842_1_alg».proof.Proof.FirstProduct
import proofs.«117258_j52295521796842_1_alg».proof.Proof.SecondProduct
import proofs.«117258_j52295521796842_1_alg».proof.Proof.Network

set_option maxRecDepth 16384

noncomputable section

namespace Cert.KernelIdeal.KValue

open Cert.KernelIdeal Cert.KernelIdeal.Gen Cert.Stages Cert.PlainMatmul
open Idealize.ShloMosaic Idealize.ShloMosaic.TcCoe Idealize.SL.Sem

variable (m : (ℓ : Loc nD τ sig) → Buf (Elt Ideal) ℓ) (ρ : Dev nD → PrngReg)

/-- The second region's left operand, as it finds it: the maximum with zero of the first aggregation of the first
    product of the launched arguments. -/
theorem hidden_eq (c : Dev nD) :
    SecondProduct.lhsArr (V4 m ρ) c
      = relu16 (aggregate16 (product (φ₁ := .f32) (φ₂ := .f32) (m ((c : Thread nD τ).loc main_arg0)) (m ((c : Thread nD τ).loc main_arg2)))
          (srcOf (Fold.edges m c)) (dstOf (Fold.edges m c)) (normOf (srcOf (Fold.edges m c)) (dstOf (Fold.edges m c)))
          (m ((c : Thread nD τ).loc main_arg3))) := by
  have hx : FirstProduct.lhsArr (V1 m ρ) c = m ((c : Thread nD τ).loc main_arg0) := Fold.W1_arg0 m ρ c
  have hw : FirstProduct.rhsArr (V1 m ρ) c = m ((c : Thread nD τ).loc main_arg2) := Fold.W1_arg2 m ρ c
  show W4 m ρ c (Proc.devRef .tc main_v44) = _
  rw [Fold.W4_hidden, FirstProduct.result (V1 m ρ) c, hx, hw]

/-- THE RESULT of the kernel program is the network of its launched arguments. -/
theorem result_eq_network (c : Dev nD) :
    W6 m ρ c (Proc.devRef .tc main_v61)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have hr : SecondProduct.rhsArr (V4 m ρ) c = m ((c : Thread nD τ).loc main_arg4) := Fold.W4_arg4 m ρ c
  rw [Fold.W6_result, SecondProduct.result (V4 m ρ) c, hidden_eq, hr]
  rfl

end Cert.KernelIdeal.KValue

end
-- ==== Proof.ReferenceValue.lean ====
/-
  The reference's result as the network of its arguments.  The reference's run ends with its result at the composed
  term of its host operations.  Read for any float values, that term is the shared stages composed — the endpoint lists
  and the edge weights made twice from the same edge list are the same lists and weights —, with the host's two
  `dot_general`s where the network has its two products; and at the extended reals a plain `dot_general` is the product.
-/
import proofs.«117258_j52295521796842_1_alg».proof.Proof.Gen.ReferenceIdeal.Run
import proofs.«117258_j52295521796842_1_alg».proof.Proof.Network

set_option maxRecDepth 16384

noncomputable section

namespace Cert.ReferenceIdeal.RefValue

open Cert.ReferenceIdeal Cert.ReferenceIdeal.Gen Cert.ReferenceIdeal.Value Cert.Stages Cert.PlainMatmul
open Idealize.ShloMosaic Idealize.ShloMosaic.TcCoe Idealize.SL.Sem

section AnyValues

variable {F : FTy → Type} [FloatOps F]
variable (m : (ℓ : Loc nD τ sig) → Buf (Elt F) ℓ)

/-- The six arguments as launched, at their literal types. -/
abbrev argX (c : Dev nD) : FVec F S100000x512 .f32 := m ((c.tc : Thread nD τ).loc main_arg0)
abbrev argE (c : Dev nD) : (⟨S2x3200000, .i32⟩ : BufTy).Contents (Elt F) := m ((c.tc : Thread nD τ).loc main_arg1)
abbrev argW1 (c : Dev nD) : FVec F S512x16 .f32 := m ((c.tc : Thread nD τ).loc main_arg2)
abbrev argB1 (c : Dev nD) : FVec F S16 .f32 := m ((c.tc : Thread nD τ).loc main_arg3)
abbrev argW2 (c : Dev nD) : FVec F S16x10 .f32 := m ((c.tc : Thread nD τ).loc main_arg4)
abbrev argB2 (c : Dev nD) : FVec F S10 .f32 := m ((c.tc : Thread nD τ).loc main_arg5)

/-- The reference's composed term is the stages composed, its two products the host's `dot_general`. -/
theorem res_eq_stages (c : Dev nD) :
    res_main_v88 m c
      = aggregate10
          (Host.dotGeneral dot_S100000x16_S16x10_S100000x10_1_0_0_1_n_n none
            (relu16 (aggregate16
              (Host.dotGeneral dot_S100000x512_S512x16_S100000x16_1_0_0_1_n_n none (argX m c) (argW1 m c))
              (srcOf (argE m c)) (dstOf (argE m c)) (normOf (srcOf (argE m c)) (dstOf (argE m c))) (argB1 m c)))
            (argW2 m c))
          (srcOf (argE m c)) (dstOf (argE m c)) (normOf (srcOf (argE m c)) (dstOf (argE m c))) (argB2 m c) := by
  unfold res_main_v88 aggregate10 aggregate16 relu16 normOf degOf wrapped column srcOf dstOf
  rfl

end AnyValues

/-- At the extended reals the reference's result is the network of its arguments. -/
theorem res_eq_network (m : (ℓ : Loc nD τ sig) → Buf (Elt Ideal) ℓ) (c : Dev nD) :
    res_main_v88 (F := Ideal) m c
      = network (argX m c) (argE m c) (argW1 m c) (argB1 m c) (argW2 m c) (argB2 m c) := by
  have h1 : Host.dotGeneral dot_S100000x512_S512x16_S100000x16_1_0_0_1_n_n none (argX m c) (argW1 m c)
      = product (argX m c) (argW1 m c) :=
    dotGeneral_plain_eq_product (M := 100000) (K := 512) (N := 16) (argX m c) (argW1 m c) none
  have h2 : ∀ H : FVec Ideal S100000x16 .f32,
      Host.dotGeneral dot_S100000x16_S16x10_S100000x10_1_0_0_1_n_n none H (argW2 m c) = product H (argW2 m c) :=
    fun H => dotGeneral_plain_eq_product (M := 100000) (K := 16) (N := 10) H (argW2 m c) none
  rw [res_eq_stages, h1, h2]
  rfl

end Cert.ReferenceIdeal.RefValue

end
-- ==== Proof.lean ====
/-
  A two-layer graph convolution over 100000 nodes and 3200000 edges (plus one self loop per node): each layer multiplies
  the node features by a weight matrix, gathers the product's rows along the edges' sources, scales row `k` by
  `rsqrt (deg (src k)) * rsqrt (deg (dst k))`, adds the scaled rows into the edges' targets, and adds a bias; between the
  layers stands the maximum with zero.  The kernel program computes the two matrix products in two pipelined kernel
  regions over row blocks (its operands pass through a narrower format on the way in, the identity at the extended reals,
  and the accumulator starts at zero); the reference computes them by the host's `dot_general`, and builds the endpoint
  lists and edge weights once per layer from the same edge list.  At the extended reals every other stage is literally
  the same function on both sides, a row-blocked product is the product, and a product into zero is the host's: both
  programs end at `Cert.Stages.network` of their arguments.  No law of arithmetic beyond that is used, so the
  precondition is not opened.

  The frames of the two kernel programs are the generated ones; the reference's is its generated run with the result
  dropped; no operation was rewritten by the idealization, so there is nothing to preserve.
-/
import proofs.«117258_j52295521796842_1_alg».proof.Defs
import proofs.«117258_j52295521796842_1_alg».proof.Proof.Gen.Kernel
import proofs.«117258_j52295521796842_1_alg».proof.Proof.Gen.Kernel.Skeleton
import proofs.«117258_j52295521796842_1_alg».proof.Proof.Gen.Kernel.Launch
import proofs.«117258_j52295521796842_1_alg».proof.Proof.Gen.Kernel.Points
import proofs.«117258_j52295521796842_1_alg».proof.Proof.Gen.Kernel.Frame
import proofs.«117258_j52295521796842_1_alg».proof.Proof.Gen.KernelIdeal
import proofs.«117258_j52295521796842_1_alg».proof.Proof.Gen.KernelIdeal.Skeleton
import proofs.«117258_j52295521796842_1_alg».proof.Proof.Gen.KernelIdeal.Launch
import proofs.«117258_j52295521796842_1_alg».proof.Proof.Gen.KernelIdeal.Points
import proofs.«117258_j52295521796842_1_alg».proof.Proof.Gen.KernelIdeal.Frame
import proofs.«117258_j52295521796842_1_alg».proof.Proof.Gen.ReferenceIdeal
import proofs.«117258_j52295521796842_1_alg».proof.Proof.Gen.Pre_finite_inputs
import proofs.«117258_j52295521796842_1_alg».proof.Proof.Gen.ReferenceIdeal.Run
import proofs.«117258_j52295521796842_1_alg».proof.Proof.Gen.ReferenceIdeal.Read
import proofs.«117258_j52295521796842_1_alg».proof.Proof.KernelIdealRun
import proofs.«117258_j52295521796842_1_alg».proof.Proof.KernelValue
import proofs.«117258_j52295521796842_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at the network of the launched arguments, which agree. -/
theorem algebraic : Cert.algebraic_KernelIdeal_ReferenceIdeal := by
  intro m ρ m' ρ' _ hagree
  refine ⟨fun c => Cert.Stages.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.result_eq_network m ρ c), (h c).2⟩)
      (Cert.KernelIdeal.GenRun.run_out m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5⟩ := hagree c
    refine (Cert.ReferenceIdeal.RefValue.res_eq_network m' c).trans ?_
    show Cert.Stages.network
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = _
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
